-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768 : Shape := ⟨1, ![32768]⟩
abbrev S2048 : Shape := ⟨1, ![2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S32768 : S_.BroadcastsInDim S32768 (![] : Fin 0 → Fin S32768.rank)
  reducesTo_S32768_S_d0 : S32768.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32768x2048 .f32) (main_arg1 : IVec S32768 32) (main_arg2 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_c_2 : IVec S_ 32 := constantI S_ 32 0#32
  let main_v9 : IVec S32768 32 := broadcastInDim S32768 ![] bcast_S_S32768 main_c_2
  let main_v10 : IVec S32768 1 := cmpi .sge main_arg1 main_v9
  let main_c_3 : IVec S_ 1 := constantI S_ 1 1#1
  let main_v11 : IVec S_ 1 := (fun x v => Host.reduce IntOp.andi x v reducesTo_S32768_S_d0 h_S_) main_v10 main_c_3
  let main_v12 : IVec S_ 1 := andi main_v8 main_v11
  let main_c_4 : IVec S_ 32 := constantI S_ 32 2048#32
  let main_v13 : IVec S32768 32 := broadcastInDim S32768 ![] bcast_S_S32768 main_c_4
  let main_v14 : IVec S32768 1 := cmpi .slt main_arg1 main_v13
  let main_c_5 : IVec S_ 1 := constantI S_ 1 1#1
  let main_v15 : IVec S_ 1 := (fun x v => Host.reduce IntOp.andi x v reducesTo_S32768_S_d0 h_S_) main_v14 main_c_5
  fn_part1 (F := F) main_v12 main_v15
-- ==== Kernel.lean ====
abbrev S32768x2048 : Shape := ⟨2, ![32768, 2048]⟩
abbrev S32768 : Shape := ⟨1, ![32768]⟩
abbrev S2048 : Shape := ⟨1, ![2048]⟩
abbrev S_ : Shape := ⟨0, ![]⟩
abbrev S32768x1 : Shape := ⟨2, ![32768, 1]⟩
abbrev S512x128 : Shape := ⟨2, ![512, 128]⟩
abbrev S512x2048 : Shape := ⟨2, ![512, 2048]⟩
abbrev S512x1 : Shape := ⟨2, ![512, 1]⟩
abbrev S8x128 : Shape := ⟨2, ![8, 128]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 27
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S2048, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S_, .i32⟩
  | .hbm, ⟨12, _⟩ => ⟨S32768, .i32⟩
  | .hbm, ⟨13, _⟩ => ⟨S32768, .i1⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S32768, .i32⟩
  | .hbm, ⟨18, _⟩ => ⟨S32768x1, .i32⟩
  | .hbm, ⟨19, _⟩ => ⟨S32768, .f32⟩
  | .hbm, ⟨20, _⟩ => ⟨S32768x1, .f32⟩
  | .hbm, ⟨21, _⟩ => ⟨S32768x1, .i32⟩
  | .hbm, ⟨22, _⟩ => ⟨S512x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S8x128, .f32⟩
  | .local _ .vmem, ⟨7, _⟩ => ⟨S8x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  shapeCasts_S32768_S32768x1 : S32768.ShapeCasts S32768x1
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x2048_S512 : S512x2048.Reduces [1] S512
  shapeCasts_S512_S512x1 : S512.ShapeCasts S512x1
  broadcasts_S512x1_S512x2048 : S512x1.Broadcasts S512x2048
  iota_S512x2048_d1_w32 : S512x2048.Iotas .tc 32 [1]
  slices_S512x2048_o0_2047_S512x1 : S512x2048.Slices ![0, 2047] S512x1
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S512x128_S_d0_1 : S512x128.ReducesTo [0, 1] S_
  h_S_ : 0 < S_.numel
  gather_S2048_S32768x1_S32768_n_0_n_n_0_1_1_wf : GatherDims.WF S2048 S32768x1 S32768 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .i32 = 32 ∨ (Rect.block (s := S32768x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .f32 = 32 ∨ (Rect.block (s := S32768x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S512x128.size a
  hwx0_3 : ∀ i : grid0.Coords, EltTy.bits .f32 = 32 ∨ (Rect.block (s := S512x128) S8x128.size (cc0_transform_3 i) (hinb0_3 i)).WholeWords (EltTy.packing .f32)

variable [Facts₀]

def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S32768 : Shape := ⟨1, ![32768]⟩
abbrev S2048 : Shape := ⟨1, ![2048]⟩
abbrev S_ : Shape := ⟨0, ![]⟩
abbrev S32768x1 : Shape := ⟨2, ![32768, 1]⟩
abbrev S32768x1x1 : Shape := ⟨3, ![32768, 1, 1]⟩
abbrev S1 : Shape := ⟨1, ![1]⟩
abbrev S1x1x1 : Shape := ⟨3, ![1, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S2048, .f32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .f32⟩
  | .hbm, ⟨8, _⟩ => ⟨S32768x1, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x1, .i32⟩
  | .hbm, ⟨18, _⟩ => ⟨S_, .i32⟩
  | .hbm, ⟨19, _⟩ => ⟨S32768x1, .i32⟩
  | .hbm, ⟨20, _⟩ => ⟨S32768x1, .i1⟩
  | .hbm, ⟨21, _⟩ => ⟨S_, .i32⟩
  | .hbm, ⟨22, _⟩ => ⟨S32768x1, .i32⟩
  | .hbm, ⟨23, _⟩ => ⟨S32768x1, .i32⟩
  | .hbm, ⟨24, _⟩ => ⟨S32768x1, .i32⟩
  | .hbm, ⟨25, _⟩ => ⟨S32768x1x1, .i32⟩
  | .hbm, ⟨26, _⟩ => ⟨S1, .i32⟩
  | .hbm, ⟨27, _⟩ => ⟨S_, .i32⟩
  | .hbm, ⟨28, _⟩ => ⟨S32768x1x1, .i32⟩
  | .hbm, ⟨29, _⟩ => ⟨S32768x1x1, .i1⟩
  | .hbm, ⟨30, _⟩ => ⟨S1x1x1, .i32⟩
  | .hbm, ⟨31, _⟩ => ⟨S32768x1x1, .i32⟩
  | .hbm, ⟨32, _⟩ => ⟨S32768x1x1, .i1⟩
  | .hbm, ⟨33, _⟩ => ⟨S32768x1x1, .i1⟩
  | .hbm, ⟨34, _⟩ => ⟨S_, .i1⟩
  | .hbm, ⟨35, _⟩ => ⟨S32768x1, .i1⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768, .f32⟩
  | .hbm, ⟨41, _⟩ => ⟨S32768x1, .f32⟩
  | .hbm, ⟨42, _⟩ => ⟨S32768, .f32⟩
  | .hbm, ⟨43, _⟩ => ⟨S_, .i32⟩
  | .hbm, ⟨44, _⟩ => ⟨S32768, .i32⟩
  | .hbm, ⟨45, _⟩ => ⟨S32768, .i1⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S32768, .f32⟩
  | .hbm, ⟨52, _⟩ => ⟨S_, .f32⟩
  | .hbm, ⟨53, _⟩ => ⟨S32768, .f32⟩
  | .hbm, ⟨54, _⟩ => ⟨S32768, .i1⟩
  | .hbm, ⟨55, _⟩ => ⟨S_, .f32⟩
  | .hbm, ⟨56, _⟩ => ⟨S32768, .f32⟩
  | .hbm, ⟨57, _⟩ => ⟨S32768, .f32⟩
  | .hbm, ⟨58, _⟩ => ⟨S32768, .f32⟩
  | .hbm, ⟨59, _⟩ => ⟨S32768, .f32⟩
  | .hbm, ⟨60, _⟩ => ⟨S_, .f32⟩
  | .hbm, ⟨61, _⟩ => ⟨S32768, .f32⟩
  | .hbm, ⟨62, _⟩ => ⟨S32768, .i1⟩
  | .hbm, ⟨63, _⟩ => ⟨S_, .f32⟩
  | .hbm, ⟨64, _⟩ => ⟨S32768, .f32⟩
  | .hbm, ⟨65, _⟩ => ⟨S32768, .f32⟩
  | .hbm, ⟨66, _⟩ => ⟨S32768, .f32⟩
  | .hbm, ⟨67, _⟩ => ⟨S_, .f32⟩
  | .hbm, ⟨68, _⟩ => ⟨S32768, .f32⟩
  | .hbm, ⟨69, _⟩ => ⟨S32768, .f32⟩
  | .hbm, ⟨70, _⟩ => ⟨S32768, .f32⟩
  | .hbm, ⟨71, _⟩ => ⟨S32768, .f32⟩
  | .hbm, ⟨72, _⟩ => ⟨S_, .f32⟩
  | .hbm, ⟨73, _⟩ => ⟨S32768, .f32⟩
  | .hbm, ⟨74, _⟩ => ⟨S32768, .f32⟩
  | .hbm, ⟨75, _⟩ => ⟨S32768, .f32⟩
  | .hbm, ⟨76, _⟩ => ⟨S32768, .f32⟩
  | .hbm, ⟨77, _⟩ => ⟨S32768, .f32⟩
  | .hbm, ⟨78, _⟩ => ⟨S32768, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_3 : Ref sig .tc := ⟨.hbm, 52, rfl⟩
abbrev main_v23 : Ref sig .tc := ⟨.hbm, 53, rfl⟩
abbrev main_v24 : Ref sig .tc := ⟨.hbm, 54, rfl⟩
abbrev main_cst_4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_8 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_9 : Ref sig .tc := ⟨.hbm, 79, rfl⟩
abbrev main_v44 : Ref sig .tc := ⟨.hbm, 80, rfl⟩
abbrev main_cst_10 : Ref sig .tc := ⟨.hbm, 81, rfl⟩
abbrev main_v45 : Ref sig .tc := ⟨.hbm, 82, rfl⟩

abbrev nD : Nat := 1
abbrev τ : Topo := Topo.v7x

variable {F : FTy → Type} [FloatOps F]

class Facts₀ : Prop where
  reducesTo_S32768x2048_S32768_d1 : S32768x2048.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2048_0_1 : S32768x1.BroadcastsInDim S32768x2048 (![0, 1] : Fin 2 → Fin S32768x2048.rank)
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  shapeCasts_S32768x1_S32768 : S32768x1.ShapeCasts S32768
  slices_S32768x2048_S32768x1_0_2047 : S32768x2048.Slices ![0, 2047] S32768x1
  reducesTo_S32768_S_d0 : S32768.ReducesTo [0] S_
  gather_S32768x2048_S32768x1x1_S32768x1_n_1_0_0_1_2_11_wf : GatherDims.WF S32768x2048 S32768x1x1 S32768x1 [] [1] [0] [1] [0] 2 ![1, 1]
  gather_S2048_S32768x1_S32768_n_0_n_n_0_1_1_wf : GatherDims.WF S2048 S32768x1 S32768 [] [0] [] [0] [] 1 ![1]

variable [Facts₀]

def gather_S32768x2048_S32768x1x1_S32768x1_n_1_0_0_1_2_11 : GatherDims S32768x2048 S32768x1x1 S32768x1 where
  offsetDims := []
  collapsedSliceDims := [1]
  operandBatchingDims := [0]
  startIndicesBatchingDims := [0]
  startIndexMap := [1]
  indexVectorDim := 2
  sliceSizes := ![1, 1]
  wf := gather_S32768x2048_S32768x1x1_S32768x1_n_1_0_0_1_2_11_wf
def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf

class Facts : Prop extends Facts₀ where

variable [Facts]
-- ==== Proof.TargetRange.lean ====
/-
  What the precondition says of the targets.

  The precondition is the conjunction of four `all`-reductions: the two finiteness tests of the float inputs, and, of
  every target word `t` read signed, `0 ≤ t` and `t < 2048`. A conjunction of bits is 1 only if each bit is; an
  `all`-reduction into one index is 1 only if the bit is 1 at every index. A 32-bit word that is non-negative and
  below 2048 when read signed is below 2048 when read unsigned.
-/
import proofs.«408537_j1606317768947_2_alg».proof.Pre_finite_inputs
import proofs.«408537_j1606317768947_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.TargetRange

open Cert.Pre_finite_inputs Idealize.ShloMosaic Idealize.ShloMosaic.ValueIdx

instance : Subsingleton S_.Idx := ⟨fun a b => funext fun d => d.elim0⟩

/-- Under the precondition every target word is a class index: below 2048 read unsigned. -/
theorem target_lt (a0 : FVec Ideal S32768x2048 .f32) (a1 : IVec S32768 32) (a2 : FVec Ideal S2048 .f32)
    (h : fn (F := Ideal) a0 a1 a2 = fun _ => 1#1) (r : Fin 32768) : (a1 (ix1 r)).toNat < 2048 := by
  have h0 := congrFun h ix0
  dsimp only [fn, fn_part1] at h0
  obtain ⟨h12, h15⟩ := IntOp.andi_eq_one.1 h0
  obtain ⟨-, h11⟩ := IntOp.andi_eq_one.1 h12
  have hge := Host.reduce_andi_all _ _ _ _ _ h11 (ix1 r)
  have hlt := Host.reduce_andi_all _ _ _ _ _ h15 (ix1 r)
  have hge' : (0#32 : BitVec 32).toInt ≤ (a1 (ix1 r)).toInt := IntOp.cmpi_sge.1 hge
  have hlt' : (a1 (ix1 r)).toInt < (2048#32 : BitVec 32).toInt := IntOp.cmpi_slt.1 hlt
  have e := BitVec.toInt_eq_toNat_cond (a1 (ix1 r))
  have b := (a1 (ix1 r)).isLt
  have z : (0#32 : BitVec 32).toInt = 0 := by decide
  have k : (2048#32 : BitVec 32).toInt = 2048 := by decide
  rw [z] at hge'
  rw [k] at hlt'
  omega

end Cert.Pre_finite_inputs.TargetRange

end
-- ==== Proof.HostPrefix.lean ====
/-
  The two arrays the host computes before the kernel is launched, as terms of the arguments.

  The targets are clipped to [0, 2047] (the larger of 0 and the target, then the smaller of 2047 and that) and kept as a
  32768 × 1 column: this is the kernel's second window. The weights are the class weights gathered at the clipped targets
  (a negative index first moved up by 2048, as jnp indexing does), also kept as a 32768 × 1 column: the third window.
  Both facts hold at any float instance: the operations are integer ones and a gather.
-/
import proofs.«408537_j1606317768947_2_alg».proof.Proof.Gen.KernelIdeal.Frame
import Idealize.ShloMosaic.Lib.StableHlo.Run
import Idealize.ShloMosaic.Lib.Tactic

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The targets clipped to [0, 2047]. -/
def clipped (c : Dev nD) : IVec S32768 32 :=
  minsi (broadcastInDim S32768 ![] bcast_S_S32768 (constantI S_ 32 2047#32))
    (maxsi (broadcastInDim S32768 ![] bcast_S_S32768 (constantI S_ 32 0#32)) (m ((c : Thread nD τ).loc main_arg1)))

/-- The clipped targets with a negative one moved up by 2048: the positions the weights are gathered at. -/
def wrapped (c : Dev nD) : IVec S32768 32 :=
  select (cmpi .slt (clipped m c) (broadcastInDim S32768 ![] bcast_S_S32768 (constantI S_ 32 0#32)))
    (addi (clipped m c) (broadcastInDim S32768 ![] bcast_S_S32768 (constantI S_ 32 2048#32))) (clipped m c)

set_option maxHeartbeats 2000000 in
/-- The kernel's second window is staged from the clipped targets as a column. -/
theorem V_targets (c : Dev nD) : V m c main_v9 = shapeCast S32768x1 (clipped m c) shapeCasts_S32768_S32768x1 := by
  dsimp only [V, V0]
  simp only [hostOps0, hostOps0_1, hostOps0_2, List.flatten_cons, List.flatten_nil, List.append_nil, List.cons_append, List.nil_append]
  after_results_simp <;> rfl

set_option maxHeartbeats 2000000 in
/-- The kernel's third window is staged from the class weights gathered at those positions, as a column. -/
theorem V_weights (c : Dev nD) : V m c main_v8 = shapeCast S32768x1
    (Host.gather gather_S2048_S32768x1_S32768_n_0_n_n_0_1_1 (m ((c : Thread nD τ).loc main_arg2))
      (broadcastInDim S32768x1 ![0] bcast_S32768_S32768x1_0 (wrapped m c)))
    shapeCasts_S32768_S32768x1 := by
  dsimp only [V, V0]
  simp only [hostOps0, hostOps0_1, hostOps0_2, List.flatten_cons, List.flatten_nil, List.append_nil, List.cons_append, List.nil_append]
  after_results_simp <;> rfl

end Cert.KernelIdeal.HostPrefix

end
-- ==== Proof.DomainLoss.lean ====
/-
  The loss both programs compute, written once over the extended reals.

  For one sample — a row `x` of 2048 logits, a target class `t`, a class weight `w` —:
  with `M` the row's largest entry (taken from −∞), `e c = exp (x c − M)` and `s = Σ_c e c`, the target's
  probability is `pt = e t / s` and the last ("domain") column's is `pd = e 2047 / s`; the sample's loss is
  `w · ( −log pt' · (1 − pd) − log (1 − pt'') · pd )`, where `pt'` is `pt + ε` when `pt = 0` and `pt` otherwise, and
  `pt''` is `(1 − ε)·pt` when `pt = 1` and `pt` otherwise. The result is the sum of the 32768 samples' losses
  (from 0) divided by 32768. The float constants stay the f32 words the two programs print (the same words on
  both sides), so nothing here depends on what they denote.

  Also here, because they are statements about sums over index sets and about no program:
  a 512 × 128 array that is zero except at the entries (8·k, 0), k < 64, sums to the sum of those 64 entries, and a sum
  over 64 consecutive runs of 512 rows is the sum over all 32768 rows.
-/
import Idealize.ShloMosaic.PureOps.Ideal
import Idealize.ShloMosaic.PureOps.Ideal.Laws
import Idealize.ShloMosaic.Lib.ValueIdx
import Idealize.ShloMosaic.Lib.ValueIdxRank1

noncomputable section

namespace Cert.DomainLoss

open Idealize.ShloMosaic Idealize.ShloMosaic.ValueIdx

/-- The f32 words of the two programs: −∞, 0, 1, ε = f32(1e-6), f32(1 − 1e-6), 32768. -/
abbrev wNegInf : EReal := Ideal.ofBits .f32 0xFF800000#32
abbrev wZero : EReal := Ideal.ofBits .f32 0x00000000#32
abbrev wOne : EReal := Ideal.ofBits .f32 0x3F800000#32
abbrev wEps : EReal := Ideal.ofBits .f32 0x358637BD#32
abbrev wOneMinusEps : EReal := Ideal.ofBits .f32 0x3F7FFFEF#32
abbrev wCount : EReal := Ideal.ofBits .f32 0x47000000#32

/-- The last column. -/
abbrev lastCol : Fin 2048 := ⟨2047, by omega⟩

/-- A row's largest entry, from −∞. -/
def rowMax (x : Fin 2048 → EReal) : EReal := (Finset.univ : Finset (Fin 2048)).fold max wNegInf x

/-- The softmax numerators of a row. -/
def rowExp (x : Fin 2048 → EReal) (c : Fin 2048) : EReal := Ideal.exp (x c - rowMax x)

/-- The softmax denominator of a row. -/
def rowDen (x : Fin 2048 → EReal) : EReal := ∑ c : Fin 2048, rowExp x c

/-- The sample loss from the target's probability `pt`, the domain column's probability `pd` and the weight `w`. -/
def lossOf (pt pd w : EReal) : EReal :=
  w * ((-(Ideal.log (Scalar.select (Ideal.cmp .oeq pt wZero) (pt + wEps) pt))) * (wOne - pd)
    - Ideal.log (wOne - Scalar.select (Ideal.cmp .oeq pt wOne) (wOneMinusEps * pt) pt) * pd)

/-- The loss of one sample: row `x`, target class `t`, weight `w`. -/
def rowLoss (x : Fin 2048 → EReal) (t : Fin 2048) (w : EReal) : EReal :=
  lossOf (Ideal.div (rowExp x t) (rowDen x)) (Ideal.div (rowExp x lastCol) (rowDen x)) w

/-- The whole result from the per-sample losses. -/
def meanLoss (ℓ : Fin 32768 → EReal) : EReal := Ideal.div (wZero + ∑ r : Fin 32768, ℓ r) wCount

/-- `0 − y` is `−y` on the extended reals (the kernel negates by subtracting from the zero word). -/
theorem wZero_sub (y : EReal) : wZero - y = -y := by
  show Ideal.ofBits .f32 0x00000000#32 - y = -y
  rw [Ideal.ofBits_zero_f32, sub_eq_add_neg, zero_add]

/-- Against −∞ the larger of −∞ and a maximum taken from −∞ is that maximum. -/
theorem max_wNegInf_rowMax (x : Fin 2048 → EReal) : max wNegInf (rowMax x) = rowMax x :=
  max_eq_right ((Finset.le_fold_max _).2 (Or.inl le_rfl))

/-- Summing a row's numerators with every column but `t` replaced by zero leaves the numerator at `t`. -/
theorem sum_select_col (e : Fin 2048 → EReal) (t : Fin 2048) :
    ∑ c : Fin 2048, (if c = t then e c else wZero) = e t := by
  show ∑ c : Fin 2048, (if c = t then e c else Ideal.ofBits .f32 0x00000000#32) = e t
  rw [Ideal.ofBits_zero_f32, Finset.sum_ite_eq' Finset.univ t e, if_pos (Finset.mem_univ t)]

end Cert.DomainLoss

end
-- ==== Proof.TileLoss.lean ====
/-
  What the kernel's body leaves in its 8 × 128 output tile, for one tile of 512 samples.

  The body reads a 512 × 2048 block of logits `x`, a 512 × 1 column of targets `tg` and a 512 × 1 column of weights `w`.
  Row by row it takes the row's maximum (from −∞), the exponentials of the differences, their sum, and — instead of
  indexing — the sum of the exponentials with every column but the target's replaced by zero (the column index compared
  with the target), which is the exponential at the target when the target is a column index. The two quotients, the
  pointwise loss and the product with the weight follow; the 512 losses are summed, and the sum is placed at entry (0, 0)
  of a tile that is zero elsewhere.
-/
import proofs.«408537_j1606317768947_2_alg».proof.Proof.Gen.KernelIdeal.Skeleton
import proofs.«408537_j1606317768947_2_alg».proof.Proof.DomainLoss
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.TileLoss

open Cert.KernelIdeal Cert.KernelIdeal.Gen Idealize.ShloMosaic Idealize.ShloMosaic.ValueIdx Cert.DomainLoss

/-- Row `q` of a tile of logits. -/
abbrev tileRow (x : Vec Ideal S512x2048 .f32) (q : Fin 512) : Fin 2048 → EReal := fun c => x (ix2 q c)

/-! ## The layout operations of the body, read at an index -/

/-- A vector of 512 entries kept as a 512 × 1 column reads, at (q, 0), the vector at q. -/
theorem column_apply {α : Type} (v : S512.Idx → α) (q : Fin 512) :
    shapeCast S512x1 v shapeCasts_S512_S512x1 (ix2 q 0) = v (ix1 q) :=
  shapeCast_apply v _ (ix2 q 0) (ix1 q) (by
    rw [Shape.rowMajor_val_one, Shape.rowMajor_val_two]
    show q.val = q.val * 1 + 0
    omega)

/-- A 512 × 1 column spread along the rows of a 512 × 2048 block reads, at (q, c), the column at (q, 0). -/
theorem spread_apply {α : Type} (v : S512x1.Idx → α) (q : Fin 512) (c : Fin 2048) :
    broadcastTo S512x2048 v broadcasts_S512x1_S512x2048 (ix2 q c) = v (ix2 q 0) :=
  broadcastTo_apply v _ (ix2 q c) (ix2 q 0) (fun a => by
    match a with
    | ⟨0, _⟩ => rfl
    | ⟨1, _⟩ => rfl)

/-- The last column of a 512 × 2048 block, as a 512 × 1 column, reads at (q, 0) the block at (q, 2047). -/
theorem lastColumn_apply {α : Type} (v : S512x2048.Idx → α) (q : Fin 512) :
    extractStridedSlice S512x1 ![0, 2047] v slices_S512x2048_o0_2047_S512x1 (ix2 q 0) = v (ix2 q lastCol) :=
  extractStridedSlice_apply _ v _ (ix2 q 0) (ix2 q lastCol) (fun a => by
    match a with
    | ⟨0, _⟩ => show q.val = 0 + q.val; omega
    | ⟨1, _⟩ => rfl)

/-- The reduced index `q` with the column `c` put back is the block index (q, c). -/
theorem lift_row (q : Fin 512) (c : Fin 2048) :
    (reduces_S512x2048_S512 : S512x2048.Reduces [1] S512).lift (ix1 q) c = ix2 q c :=
  funext fun a => Fin.ext (by
    match a with
    | ⟨0, _⟩ => rfl
    | ⟨1, _⟩ => rfl)

/-! ## The softmax pieces of a row -/

/-- The lane maximum of the block at row `q` is the row's maximum from −∞. -/
theorem blockMax_apply (x : FVec Ideal S512x2048 .f32) (hφ : FKind.Formats .f32)
    (hacc : (0xFF800000#32 : BitVec 32) = 0xFF800000#32) (q : Fin 512) :
    multiReduction (F := Ideal) .maximumf [1] S512 x 0xFF800000#32 reduces_S512x2048_S512 hφ hacc (ix1 q)
      = rowMax (tileRow x q) := by
  refine (Ideal.multiReduction_maximumf_single x 0xFF800000#32 reduces_S512x2048_S512 hφ hacc (ix1 q)).trans ?_
  unfold rowMax
  exact congrArg (Finset.fold max wNegInf · Finset.univ) (funext fun c => congrArg x (lift_row q c))

/-- The lane sum of a block at row `q` is the sum of the row. -/
theorem blockSum_apply (y : FVec Ideal S512x2048 .f32) (hφ : FKind.Formats .f32)
    (hacc : (0x00000000#32 : BitVec 32) = 0x00000000#32) (q : Fin 512) :
    multiReduction (F := Ideal) .add [1] S512 y 0x00000000#32 reduces_S512x2048_S512 hφ hacc (ix1 q)
      = ∑ c : Fin 2048, y (ix2 q c) := by
  refine (Ideal.multiReduction_add_single y 0x00000000#32 reduces_S512x2048_S512 hφ hacc (ix1 q)).trans ?_
  exact Finset.sum_congr rfl fun c _ => congrArg y (lift_row q c)

/-- The body's exponentials: at (q, c) the softmax numerator of row `q` at column `c`. -/
theorem numer_apply (x : Vec Ideal S512x2048 .f32) (q : Fin 512) (c : Fin 2048) :
    k0_pay3 (F := Ideal) x (ix2 q c) = rowExp (tileRow x q) c := by
  unfold k0_pay3
  show Ideal.exp (x (ix2 q c) - _) = _
  rw [spread_apply, column_apply, blockMax_apply]
  rfl

/-- The body's row sums, kept as a column: at (q, 0) the softmax denominator of row `q`. -/
theorem denom_apply (x : Vec Ideal S512x2048 .f32) (q : Fin 512) :
    k0_pay4 (F := Ideal) x (ix2 q 0) = rowDen (tileRow x q) := by
  unfold k0_pay4
  show shapeCast S512x1 _ shapeCasts_S512_S512x1 (ix2 q 0) = _
  rw [column_apply, blockSum_apply]
  exact Finset.sum_congr rfl fun c _ => numer_apply x q c

/-! ## The target's probability without indexing, and the domain column's -/

/-- Keeping `u` where the column index `c` equals the target word `t` and `v` elsewhere: for a target that is a column
    index, the test is `c = t`. -/
theorem select_col_eq (c : Fin 2048) (t : BitVec 32) (ht : t.toNat < 2048) (u v : EReal) :
    Scalar.select (IntOp.cmpi .eq (BitVec.ofNat 32 c.val) t) u v = if c = ⟨t.toNat, ht⟩ then u else v := by
  unfold Scalar.select
  refine if_congr ?_ rfl rfl
  refine StableHlo.Predicate.cmpi_eq_iff.trans ?_
  constructor
  · intro h
    apply Fin.ext
    have := congrArg BitVec.toNat h
    rw [BitVec.toNat_ofNat] at this
    have hc := c.isLt
    show c.val = t.toNat
    omega
  · intro h
    subst h
    exact BitVec.eq_of_toNat_eq (by
      rw [BitVec.toNat_ofNat]
      exact Nat.mod_eq_of_lt t.isLt)

/-- The quotient the body calls the target's probability: at (q, 0), for a target that is a column index, the softmax
    of row `q` at the target (the masked sum keeps exactly the target's numerator). -/
theorem target_apply (x : FVec Ideal S512x2048 .f32) (tg : Vec Ideal S512x1 .i32) (q : Fin 512)
    (ht : (tg (ix2 q 0)).toNat < 2048) :
    k0_pay5 (F := Ideal) x tg (ix2 q 0)
      = Ideal.div (rowExp (tileRow x q) ⟨(tg (ix2 q 0)).toNat, ht⟩) (rowDen (tileRow x q)) := by
  unfold k0_pay5
  show Ideal.div (shapeCast S512x1 _ shapeCasts_S512_S512x1 (ix2 q 0)) (k0_pay4 (F := Ideal) x (ix2 q 0)) = _
  rw [column_apply, blockSum_apply, denom_apply]
  congr 1
  refine (Finset.sum_congr rfl fun c _ => ?_).trans (sum_select_col (rowExp (tileRow x q)) ⟨_, ht⟩)
  show Scalar.select (IntOp.cmpi .eq (iota .tc S512x2048 32 [1] iota_S512x2048_d1_w32 (ix2 q c))
      (broadcastTo S512x2048 (shapeCast S512x1 tg shapeCasts_S512x1_S512x1) broadcasts_S512x1_S512x2048 (ix2 q c)))
      (k0_pay3 (F := Ideal) x (ix2 q c)) wZero = _
  rw [iota_single_apply, spread_apply, shapeCast_self, numer_apply]
  exact select_col_eq c (tg (ix2 q 0)) ht _ _

/-- The quotient the body calls the domain probability: at (q, 0) the softmax of row `q` at the last column. -/
theorem domain_apply (x : FVec Ideal S512x2048 .f32) (q : Fin 512) :
    k0_pay6 (F := Ideal) x (ix2 q 0) = Ideal.div (rowExp (tileRow x q) lastCol) (rowDen (tileRow x q)) := by
  unfold k0_pay6
  show Ideal.div (extractStridedSlice S512x1 ![0, 2047] (k0_pay3 (F := Ideal) x) slices_S512x2048_o0_2047_S512x1 (ix2 q 0))
      (k0_pay4 (F := Ideal) x (ix2 q 0)) = _
  rw [lastColumn_apply, numer_apply, denom_apply]

/-! ## A sample's loss, and the tile -/

/-- The weighted loss the body forms for sample `q` of the tile is `rowLoss` of the row, its target and its weight. -/
theorem sample_apply (x : FVec Ideal S512x2048 .f32) (tg : Vec Ideal S512x1 .i32) (w : Vec Ideal S512x1 .f32) (q : Fin 512)
    (ht : (tg (ix2 q 0)).toNat < 2048) :
    mulf (k0_pay2 (F := Ideal) w) (subf (k0_pay7 (F := Ideal) x tg) (k0_pay8 (F := Ideal) x tg)) (ix2 q 0)
      = rowLoss (tileRow x q) ⟨(tg (ix2 q 0)).toNat, ht⟩ (w (ix2 q 0)) := by
  unfold k0_pay2 k0_pay7 k0_pay8
  show shapeCast S512x1 w shapeCasts_S512x1_S512x1 (ix2 q 0)
      * ((wZero - Ideal.log (Scalar.select (Ideal.cmp .oeq (k0_pay5 (F := Ideal) x tg (ix2 q 0)) wZero)
            (k0_pay5 (F := Ideal) x tg (ix2 q 0) + wEps) (k0_pay5 (F := Ideal) x tg (ix2 q 0))))
          * (wOne - k0_pay6 (F := Ideal) x (ix2 q 0))
        - Ideal.log (wOne - Scalar.select (Ideal.cmp .oeq (k0_pay5 (F := Ideal) x tg (ix2 q 0)) wOne)
            (wOneMinusEps * k0_pay5 (F := Ideal) x tg (ix2 q 0)) (k0_pay5 (F := Ideal) x tg (ix2 q 0)))
          * k0_pay6 (F := Ideal) x (ix2 q 0)) = _
  rw [shapeCast_self, target_apply x tg q ht, domain_apply, wZero_sub]
  rfl

/-- Entry (0, 0) of an 8 × 128 tile, by the two coordinate tests the body makes. -/
theorem corner_select (i : S8x128.Idx) (u v : EReal) :
    Scalar.select (IntOp.andi (IntOp.cmpi .eq (BitVec.ofNat 32 (i 0).val) 0#32) (IntOp.cmpi .eq (BitVec.ofNat 32 (i 1).val) 0#32)) u v
      = if (i 0).val = 0 ∧ (i 1).val = 0 then u else v := by
  have h0 : (i 0).val < 8 := (i 0).isLt
  have h1 : (i 1).val < 128 := (i 1).isLt
  unfold Scalar.select
  refine if_congr ?_ rfl rfl
  refine IntOp.andi_eq_one.trans ?_
  rw [StableHlo.Predicate.cmpi_eq_iff, StableHlo.Predicate.cmpi_eq_iff]
  constructor
  · rintro ⟨a, b⟩
    have a' := congrArg BitVec.toNat a
    have b' := congrArg BitVec.toNat b
    rw [BitVec.toNat_ofNat] at a' b'
    simp at a' b'
    omega
  · rintro ⟨a, b⟩
    rw [a, b]
    exact ⟨rfl, rfl⟩

/-- A value `P` spread over the 8 × 128 tile, kept at entry (0, 0) by the body's two coordinate tests and replaced by the
    zero word elsewhere. -/
theorem corner_tile (P : EReal) (i : S8x128.Idx) :
    select (andi (cmpi .eq (iota .tc S8x128 32 [0] iota_S8x128_d0_w32) (broadcast S8x128 0#32))
        (cmpi .eq (iota .tc S8x128 32 [1] iota_S8x128_d1_w32) (broadcast S8x128 0#32)))
      (broadcast S8x128 P) (broadcast S8x128 (FloatOps.ofBits (F := Ideal) .f32 0x00000000#32)) i
      = if (i 0).val = 0 ∧ (i 1).val = 0 then P else wZero := by
  show Scalar.select (IntOp.andi (IntOp.cmpi .eq (iota .tc S8x128 32 [0] iota_S8x128_d0_w32 i) 0#32)
      (IntOp.cmpi .eq (iota .tc S8x128 32 [1] iota_S8x128_d1_w32 i) 0#32)) P wZero = _
  rw [iota_single_apply, iota_single_apply]
  exact corner_select i P wZero

/-- The one entry of a 1-vector, taken out through its [1, 1, 1] recast. -/
theorem extract_recast (v : S1.Idx → EReal) :
    extractAt ![0, 0, 0] (shapeCast S1x1x1 v shapeCasts_S1_S1x1x1) inpos_S1x1x1_p0_0_0 = v (ix1 0) :=
  shapeCast_apply v _ _ (ix1 0) (by
    rw [Shape.rowMajor_val_one, Shape.rowMajor_val_three]
    rfl)

/-- The sum over a [1, 512, 1] array that is a 512 × 1 column recast is the sum of the column's 512 entries. -/
theorem sum_recast (v : FVec Ideal S512x1 .f32) (hφ : FKind.Formats .f32) (hacc : (0x00000000#32 : BitVec 32) = 0x00000000#32)
    (j : S1.Idx) :
    multiReduction (F := Ideal) .add [1, 2] S1 (shapeCast S1x512x1 v shapeCasts_S512x1_S1x512x1) 0x00000000#32
        reduces_S1x512x1_S1 hφ hacc j
      = ∑ q : Fin 512, v (ix2 q 0) := by
  refine (Ideal.multiReduction_add_total _ 0x00000000#32 reduces_S1x512x1_S1 (fun b => by
    match b with
    | ⟨0, _⟩ => rfl) hφ hacc j).trans ?_
  refine (Equiv.sum_comp (Shape.reshapeEquiv shapeCasts_S512x1_S1x512x1) v).trans ?_
  rw [sum_idx2]
  exact Finset.sum_congr rfl fun q _ => Fin.sum_univ_one _

/-- THE TILE: what the body stores, at index `i` of the 8 × 128 tile, when every target of the tile is a column index:
    the sum of the tile's 512 sample losses at (0, 0), the zero word elsewhere. -/
theorem tile_apply (x : FVec Ideal S512x2048 .f32) (tg : Vec Ideal S512x1 .i32) (w : Vec Ideal S512x1 .f32)
    (htg : ∀ q : Fin 512, (tg (ix2 q 0)).toNat < 2048) (i : S8x128.Idx) :
    k0_pay1 (F := Ideal) (k0_pay2 (F := Ideal) w) (k0_pay7 (F := Ideal) x tg) (k0_pay8 (F := Ideal) x tg) i
      = if (i 0).val = 0 ∧ (i 1).val = 0
          then ∑ q : Fin 512, rowLoss (tileRow x q) ⟨(tg (ix2 q 0)).toNat, htg q⟩ (w (ix2 q 0))
          else wZero := by
  unfold k0_pay1
  rw [corner_tile]
  refine if_congr Iff.rfl ?_ rfl
  rw [extract_recast, sum_recast]
  exact Finset.sum_congr rfl fun q _ => sample_apply x tg w q (htg q)

end Cert.KernelIdeal.TileLoss

end
-- ==== Proof.SumTiles.lean ====
/-
  The regrouping of the final sum.

  The kernel writes, for tile `t` of 64, the sum of the tile's 512 sample losses at entry (8·t, 0) of a 512 × 128 array
  that is zero everywhere else, and the host then sums that whole array. The reference sums the 32768 sample losses
  directly. On the extended reals addition is commutative and associative (infinities included), zero is neutral, so
  both are the same sum: entry (a, b) contributes only for b = 0 and a = 8·t, the rows a = 8·t + s with s ≠ 0
  contribute zero, and the 64 runs of 512 consecutive rows are all the rows, each once.
-/
import proofs.«408537_j1606317768947_2_alg».proof.Proof.DomainLoss
import Mathlib.Logic.Equiv.Fin.Basic
import Mathlib.Algebra.BigOperators.Fin

noncomputable section

namespace Cert.DomainLoss

open Idealize.ShloMosaic Idealize.ShloMosaic.ValueIdx

/-- Row `512·t + q` of the 32768: sample `q` of tile `t`. -/
abbrev tileSample (t : Fin 64) (q : Fin 512) : Fin 32768 := ⟨512 * t.val + q.val, by omega⟩

/-- The sum of tile `t`'s sample losses. -/
def tilePartial (ℓ : Fin 32768 → EReal) (t : Fin 64) : EReal := ∑ q : Fin 512, ℓ (tileSample t q)

/-- The 512 × 128 array of partial sums the kernel leaves: tile `t`'s partial at (8·t, 0), the zero word elsewhere. -/
def tiledLoss (ℓ : Fin 32768 → EReal) : (⟨2, ![512, 128]⟩ : Shape).Idx → EReal := fun i =>
  if h : (i 0).val % 8 = 0 ∧ (i 1).val = 0 then tilePartial ℓ ⟨(i 0).val / 8, by have : (i 0).val < 512 := (i 0).isLt; omega⟩ else wZero

/-- Entry (8·t + a, b) of the array of partials: tile `t`'s partial when a = 0 and b = 0, the zero word otherwise. -/
theorem tiledLoss_at (ℓ : Fin 32768 → EReal) (t : Fin 64) (a : Fin 8) (b : Fin 128) (i : (⟨2, ![512, 128]⟩ : Shape).Idx)
    (h0 : (i 0).val = 8 * t.val + a.val) (h1 : (i 1).val = b.val) :
    tiledLoss ℓ i = if a.val = 0 ∧ b.val = 0 then tilePartial ℓ t else wZero := by
  unfold tiledLoss
  have ha := a.isLt
  by_cases h : a.val = 0 ∧ b.val = 0
  · rw [dif_pos (show (i 0).val % 8 = 0 ∧ (i 1).val = 0 from ⟨by omega, by omega⟩), if_pos h]
    exact congrArg (tilePartial ℓ) (Fin.ext (by show (i 0).val / 8 = t.val; omega))
  · rw [dif_neg (fun hh => h ⟨by omega, by omega⟩), if_neg h]

/-- `rowLoss` depends on its target only through the target's value. -/
theorem rowLoss_congr {x x' : Fin 2048 → EReal} {t t' : Fin 2048} {w w' : EReal} (hx : x = x') (ht : t.val = t'.val)
    (hw : w = w') : rowLoss x t w = rowLoss x' t' w' := by
  subst hx hw
  rw [Fin.ext ht]

/-- The 64 runs of 512 consecutive rows are all the rows. -/
theorem sum_tilePartial (ℓ : Fin 32768 → EReal) : ∑ t : Fin 64, tilePartial ℓ t = ∑ r : Fin 32768, ℓ r := by
  unfold tilePartial
  rw [← Fintype.sum_prod_type']
  refine Fintype.sum_equiv (finProdFinEquiv (m := 64) (n := 512)) _ _ fun p => ?_
  exact congrArg ℓ (Fin.ext (by show 512 * p.1.val + p.2.val = p.2.val + 512 * p.1.val; omega))

/-- Summing the array of partials is summing the partials. -/
theorem sum_tiledLoss (ℓ : Fin 32768 → EReal) : ∑ i, tiledLoss ℓ i = ∑ r : Fin 32768, ℓ r := by
  rw [← sum_tilePartial, sum_idx2]
  -- only column 0 of each row contributes
  have hrow : ∀ a : Fin 512, ∑ b : Fin 128, tiledLoss ℓ (ix2 a b)
      = if h : a.val % 8 = 0 then tilePartial ℓ ⟨a.val / 8, by omega⟩ else 0 := by
    intro a
    rw [Finset.sum_eq_single (0 : Fin 128)]
    · unfold tiledLoss
      by_cases h : a.val % 8 = 0
      · rw [dif_pos (show ((ix2 a (0 : Fin 128) : (⟨2, ![512, 128]⟩ : Shape).Idx) 0).val % 8 = 0 ∧ ((ix2 a (0 : Fin 128) : (⟨2, ![512, 128]⟩ : Shape).Idx) 1).val = 0 from ⟨h, rfl⟩), dif_pos h]
      · rw [dif_neg (fun hh => h hh.1), dif_neg h]
        exact Ideal.ofBits_zero_f32
    · intro b _ hb
      unfold tiledLoss
      rw [dif_neg (fun hh => hb (Fin.ext hh.2))]
      exact Ideal.ofBits_zero_f32
    · intro h; exact absurd (Finset.mem_univ _) h
  rw [Finset.sum_congr rfl fun a _ => hrow a]
  -- rows 8·t + s: only s = 0 contributes
  rw [← (finProdFinEquiv (m := 64) (n := 8)).sum_comp, Fintype.sum_prod_type]
  refine Finset.sum_congr rfl fun t _ => ?_
  rw [Finset.sum_eq_single (0 : Fin 8)]
  · have h0 : ((finProdFinEquiv (m := 64) (n := 8)) (t, (0 : Fin 8))).val % 8 = 0 := by
      show ((0 : Fin 8).val + 8 * t.val) % 8 = 0
      simp
    rw [dif_pos h0]
    exact congrArg (tilePartial ℓ) (Fin.ext (by
      show ((0 : Fin 8).val + 8 * t.val) / 8 = t.val
      simp))
  · intro s _ hs
    have hne : ¬ ((finProdFinEquiv (m := 64) (n := 8)) (t, s)).val % 8 = 0 := by
      show ¬ (s.val + 8 * t.val) % 8 = 0
      have := s.isLt
      have : s.val ≠ 0 := fun e => hs (Fin.ext e)
      omega
    rw [dif_neg hne]
  · intro h; exact absurd (Finset.mem_univ _) h

/-- So the kernel's final quotient is the mean loss. -/
theorem div_sum_tiledLoss (ℓ : Fin 32768 → EReal) : Ideal.div (wZero + ∑ i, tiledLoss ℓ i) wCount = meanLoss ℓ := by
  unfold meanLoss
  rw [sum_tiledLoss]

end Cert.DomainLoss

end
-- ==== Proof.KernelValue.lean ====
/-
  The kernel program's result, as the mean sample loss of `DomainLoss`, when every target is a class index.

  Point `t` of the grid (64 points) reads rows 512·t … 512·t + 511 of the logits, of the clipped targets and of the gathered
  weights, and writes an 8 × 128 block at rows 8·t … 8·t + 7 of a 512 × 128 array. For a target in [0, 2048) the clip does
  nothing, the negative-index move does nothing, and the gather reads the weight at the target; so the block is the tile's
  partial sum at its corner and zero elsewhere (`TileLoss.tile_apply`), the 64 blocks tile the array, and the array ends
  as `tiledLoss` of the samples' losses. The host then sums the array from zero and divides by 32768: the mean loss
  (`SumTiles`).
-/
import proofs.«408537_j1606317768947_2_alg».proof.Proof.Gen.KernelIdeal.Frame
import proofs.«408537_j1606317768947_2_alg».proof.Proof.HostPrefix
import proofs.«408537_j1606317768947_2_alg».proof.Proof.TileLoss
import proofs.«408537_j1606317768947_2_alg».proof.Proof.SumTiles
import Idealize.ShloMosaic.Lib.Pipeline.Value
import Idealize.ShloMosaic.Lib.StableHlo.Run
import Idealize.ShloMosaic.Lib.StableHlo.Predicate
import Idealize.ShloMosaic.Lib.Tactic

noncomputable section

namespace Cert.KernelIdeal.KernelValue

open Cert.KernelIdeal Cert.KernelIdeal.Gen Cert.KernelIdeal.HostPrefix Cert.KernelIdeal.TileLoss Cert.DomainLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three argument arrays as launched. -/
abbrev logits (c : Dev nD) : FVec Ideal S32768x2048 .f32 := m ((c : Thread nD τ).loc main_arg0)
abbrev targets (c : Dev nD) : IVec S32768 32 := m ((c : Thread nD τ).loc main_arg1)
abbrev weights (c : Dev nD) : FVec Ideal S2048 .f32 := m ((c : Thread nD τ).loc main_arg2)

/-- Every target is a class index. -/
def InRange (c : Dev nD) : Prop := ∀ r : Fin 32768, (targets m c (ix1 r)).toNat < 2048

/-- The samples' losses: row `r` of the logits, its target as a class, the weight of that class. -/
def sampleLosses (c : Dev nD) (h : InRange m c) : Fin 32768 → EReal := fun r =>
  rowLoss (fun col => logits m c (ix2 r col)) ⟨(targets m c (ix1 r)).toNat, h r⟩
    (weights m c (ix1 ⟨(targets m c (ix1 r)).toNat, h r⟩))

/-! ## Words -/

/-- Clipping a class index to [0, 2047] leaves it. -/
theorem clip_id (t : BitVec 32) (ht : t.toNat < 2048) : IntOp.minsi 2047#32 (IntOp.maxsi 0#32 t) = t := by
  have hti : t.toInt = t.toNat := StableHlo.Predicate.toInt_eq_toNat_of_lt (by omega)
  have h0 : (0#32 : BitVec 32).toInt = 0 := by decide
  have hk : (2047#32 : BitVec 32).toInt = 2047 := by decide
  have hmax : IntOp.maxsi 0#32 t = t := by
    unfold IntOp.maxsi
    rw [if_neg]
    simp only [BitVec.slt, hti, h0, decide_eq_true_eq]
    omega
  rw [hmax]
  unfold IntOp.minsi
  rw [if_neg]
  simp only [BitVec.slt, hti, hk, decide_eq_true_eq]
  omega

/-- Moving a negative index up by 2048 leaves a class index. -/
theorem wrap_id (t : BitVec 32) (ht : t.toNat < 2048) :
    Scalar.select (IntOp.cmpi .slt t 0#32) (IntOp.addi t 2048#32) t = t := by
  have hti : t.toInt = t.toNat := StableHlo.Predicate.toInt_eq_toNat_of_lt (by omega)
  have h0 : (0#32 : BitVec 32).toInt = 0 := by decide
  unfold Scalar.select
  rw [if_neg]
  intro hc
  have := IntOp.cmpi_slt.1 hc
  rw [hti, h0] at this
  omega

/-! ## The two computed windows' arrays, row by row -/

theorem col_row (r : Fin 32768) :
    ((⟨1, ![32768]⟩ : Shape).rowMajor (ix1 r)).val = ((⟨2, ![32768, 1]⟩ : Shape).rowMajor (ix2 r (0 : Fin 1))).val := by
  rw [Shape.rowMajor_val_one, Shape.rowMajor_val_two]
  show r.val = r.val * 1 + 0
  omega

/-- Row `r` of the staged targets is target `r`. -/
theorem targets_col (c : Dev nD) (h : InRange m c) (r : Fin 32768) :
    (V m c main_v9 : S32768x1.Idx → BitVec 32) (ix2 r 0) = targets m c (ix1 r) := by
  rw [V_targets, shapeCast_apply _ _ (ix2 r 0) (ix1 r) (col_row r)]
  show IntOp.minsi 2047#32 (IntOp.maxsi 0#32 (targets m c (ix1 r))) = targets m c (ix1 r)
  exact clip_id _ (h r)

/-- The position the weight of sample `r` is gathered at is target `r`. -/
theorem wrapped_row (c : Dev nD) (h : InRange m c) (r : Fin 32768) : wrapped m c (ix1 r) = targets m c (ix1 r) := by
  show Scalar.select (IntOp.cmpi .slt (IntOp.minsi 2047#32 (IntOp.maxsi 0#32 (targets m c (ix1 r)))) 0#32)
      (IntOp.addi (IntOp.minsi 2047#32 (IntOp.maxsi 0#32 (targets m c (ix1 r)))) 2048#32)
      (IntOp.minsi 2047#32 (IntOp.maxsi 0#32 (targets m c (ix1 r)))) = _
  rw [clip_id _ (h r)]
  exact wrap_id _ (h r)

/-- A weight vector gathered at a column of positions reads, at row `r`, the vector at the position of row `r`, when that
    position is a class index (read signed and clamped into [0, 2047] it is itself). -/
theorem take_row (x2 : S2048.Idx → EReal) (idx : IVec S32768x1 32) (r : Fin 32768) (t : BitVec 32) (ht : t.toNat < 2048)
    (hidx : idx (ix2 r 0) = t) :
    Host.gather gather_S2048_S32768x1_S32768_n_0_n_n_0_1_1 x2 idx (Shape.Idx.ofFin r) = x2 (ix1 ⟨t.toNat, ht⟩) := by
  refine (StableHlo.Predicate.gather_take gather_S2048_S32768x1_S32768_n_0_n_n_0_1_1 rfl rfl rfl rfl x2 idx r (by decide)).trans ?_
  refine congrArg x2 ?_
  rw [Shape.Idx.eq_ofFin (ix1 _)]
  refine congrArg Shape.Idx.ofFin (Fin.ext ?_)
  have e : idx (StableHlo.Predicate.ixP r) = t := by
    rw [← hidx]
    exact congrArg idx (funext fun a => by
      match a with
      | ⟨0, _⟩ => rfl
      | ⟨1, _⟩ => rfl)
  have hti : t.toInt = t.toNat := StableHlo.Predicate.toInt_eq_toNat_of_lt (by omega)
  show min (idx (StableHlo.Predicate.ixP r)).toInt.toNat (2048 - 1) = t.toNat
  rw [e, hti]
  omega

/-- The column of gather positions at row `r` is target `r`. -/
theorem positions_col (c : Dev nD) (h : InRange m c) (r : Fin 32768) :
    (broadcastInDim S32768x1 ![0] bcast_S32768_S32768x1_0 (wrapped m c)) (ix2 r 0) = targets m c (ix1 r) :=
  (broadcastInDim_apply _ _ (wrapped m c) (ix2 r 0) (ix1 r) (fun a => by
    match a with
    | ⟨0, _⟩ => rfl)).trans (wrapped_row m c h r)

/-- Row `r` of the staged weights is the class weight of target `r`. -/
theorem weights_col (c : Dev nD) (h : InRange m c) (r : Fin 32768) :
    (V m c main_v8 : S32768x1.Idx → EReal) (ix2 r 0) = weights m c (ix1 ⟨(targets m c (ix1 r)).toNat, h r⟩) := by
  rw [V_weights, shapeCast_apply _ _ (ix2 r 0) (Shape.Idx.ofFin r) ((congrArg (fun j => (Shape.rowMajor (⟨1, ![32768]⟩ : Shape) j).val)
    (Shape.Idx.eq_ofFin (ix1 r)).symm).trans (col_row r))]
  exact take_row (weights m c) _ r (targets m c (ix1 r)) (h r) (positions_col m c h r)

/-! ## The blocks of a point -/

theorem hz : (![0, 0] : Fin 2 → Nat) = fun _ => 0 := funext fun a => by fin_cases a <;> rfl

/-- A grid point as a tile number. -/
def tileOf (t : Fin cfg0.N) : Fin 64 := ⟨t.val, by have h := t.isLt; have e : cfg0.N = 64 := N_0; omega⟩

/-- The windows' index maps over the grid: block row `t`, block column 0, for all four. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point `t`'s block of logits is rows 512·t … of the logits. -/
theorem logits_blk (c : Dev nD) (t : Fin cfg0.N) (q : Fin 512) (col : Fin 2048) :
    (iblk m c 0 t : Vec Ideal S512x2048 .f32) (ix2 q col) = logits m c (ix2 (tileSample (tileOf t) q) col) := by
  obtain ⟨e0, e1, -⟩ := idx_facts t
  unfold iblk
  rw [View.read_apply]
  show V m c main_arg0 _ = _
  rw [V_main_arg0]
  refine congrArg (logits m c) (funext fun a => Fin.ext ?_)
  match a with
  | ⟨0, _⟩ => show win0_0.index t 0 * 512 + 1 * q.val = 512 * t.val + q.val; rw [e0]; omega
  | ⟨1, _⟩ => show win0_0.index t 1 * 2048 + 1 * col.val = col.val; rw [e1]; omega

/-- Point `t`'s block of targets is targets 512·t …. -/
theorem targets_blk (c : Dev nD) (h : InRange m c) (t : Fin cfg0.N) (q : Fin 512) :
    (iblk m c 1 t : Vec Ideal S512x1 .i32) (ix2 q 0) = targets m c (ix1 (tileSample (tileOf t) q)) := by
  obtain ⟨-, -, e0, e1, -⟩ := idx_facts t
  unfold iblk
  rw [View.read_apply]
  show (V m c main_v9 : S32768x1.Idx → BitVec 32) _ = _
  refine Eq.trans (congrArg (V m c main_v9 : S32768x1.Idx → BitVec 32) (funext fun a => Fin.ext ?_))
    (targets_col m c h (tileSample (tileOf t) q))
  match a with
  | ⟨0, _⟩ => show win0_1.index t 0 * 512 + 1 * q.val = 512 * t.val + q.val; rw [e0]; omega
  | ⟨1, _⟩ => show win0_1.index t 1 * 1 + 1 * 0 = 0; rw [e1]

/-- Point `t`'s block of weights is the class weights of targets 512·t …. -/
theorem weights_blk (c : Dev nD) (h : InRange m c) (t : Fin cfg0.N) (q : Fin 512) :
    (iblk m c 2 t : Vec Ideal S512x1 .f32) (ix2 q 0)
      = weights m c (ix1 ⟨(targets m c (ix1 (tileSample (tileOf t) q))).toNat, h _⟩) := by
  obtain ⟨-, -, -, -, e0, e1, -⟩ := idx_facts t
  unfold iblk
  rw [View.read_apply]
  show (V m c main_v8 : S32768x1.Idx → EReal) _ = _
  refine Eq.trans (congrArg (V m c main_v8 : S32768x1.Idx → EReal) (funext fun a => Fin.ext ?_))
    (weights_col m c h (tileSample (tileOf t) q))
  match a with
  | ⟨0, _⟩ => show win0_2.index t 0 * 512 + 1 * q.val = 512 * t.val + q.val; rw [e0]; omega
  | ⟨1, _⟩ => show win0_2.index t 1 * 1 + 1 * 0 = 0; rw [e1]

/-! ## What a point writes back, the array after the region, the result -/

/-- Point `t` writes back its block of the array of partials. -/
theorem flushed_eq (c : Dev nD) (h : InRange m c) (t : Fin cfg0.N) :
    (dats m 0 c).flushed 3 t = ((cfg0.win 3).blk t).view.read (Elt Ideal) (tiledLoss (sampleLosses m c h)) := by
  show (cfg0.win 3).cut (grid0.coords t) ((dats m 0 c).after 3 t) = _
  rw [after0_3]
  unfold out0_3
  rw [View.canon_unit_zero hz]
  simp only [View.ld_unit_zero (S := S512x2048) hz, View.ld_unit_zero (S := S512x1) hz]
  obtain ⟨-, -, -, -, -, -, e0, e1⟩ := idx_facts t
  funext j
  have htile : ∀ q : Fin 512, ((iblk m c 1 t : Vec Ideal S512x1 .i32) (ix2 q 0)).toNat < 2048 := fun q => by
    rw [targets_blk m c h t q]; exact h _
  refine (tile_apply (iblk m c 0 t) (iblk m c 1 t) (iblk m c 2 t) htile j).trans ?_
  rw [View.read_apply]
  show _ = tiledLoss (sampleLosses m c h) (((cfg0.win 3).blk t).view.emb j)
  rw [tiledLoss_at (sampleLosses m c h) (tileOf t) (j 0) (j 1) _
    (by show win0_3.index t 0 * 8 + 1 * (j 0).val = 8 * t.val + (j 0).val; rw [e0]; omega)
    (by show win0_3.index t 1 * 128 + 1 * (j 1).val = (j 1).val; rw [e1]; omega)]
  refine if_congr Iff.rfl ?_ rfl
  unfold tilePartial sampleLosses
  refine Finset.sum_congr rfl fun q _ => ?_
  exact rowLoss_congr (funext fun col => logits_blk m c t q col)
    (congrArg BitVec.toNat (targets_blk m c h t q)) (weights_blk m c h t q)

/-- An index of the array is in point `t`'s block iff each coordinate is in the block's range on its axis. -/
theorem mem_blk (t : Fin cfg0.N) (i : S512x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v10).slice (win0_3.rect t)).set ↔ _
  rw [View.set_slice_whole, Rect.mem_set_unit]
  exact Iff.rfl

/-- The 64 blocks cover the array: row `a` lies in the block of point `a / 8`. -/
theorem cover (i : S512x128.Idx) : ∃ t : Fin cfg0.N, (cfg0.win 3).flush t = true ∧ i ∈ ((cfg0.win 3).blk t).view.set := by
  have hi0 : (i 0).val < 512 := (i 0).isLt
  have hi1 : (i 1).val < 128 := (i 1).isLt
  have hN : cfg0.N = 64 := N_0
  obtain ⟨-, -, -, -, -, -, e0, e1⟩ := idx_facts ⟨(i 0).val / 8, by omega⟩
  refine ⟨⟨(i 0).val / 8, by omega⟩, flush0_3 _, ?_⟩
  rw [mem_blk]
  intro a
  match a with
  | ⟨0, _⟩ =>
    show win0_3.index ⟨(i 0).val / 8, _⟩ 0 * 8 ≤ (i 0).val ∧ (i 0).val < win0_3.index ⟨(i 0).val / 8, _⟩ 0 * 8 + 8
    rw [e0]
    show (i 0).val / 8 * 8 ≤ (i 0).val ∧ (i 0).val < (i 0).val / 8 * 8 + 8
    omega
  | ⟨1, _⟩ =>
    show win0_3.index ⟨(i 0).val / 8, _⟩ 1 * 128 ≤ (i 1).val ∧ (i 1).val < win0_3.index ⟨(i 0).val / 8, _⟩ 1 * 128 + 128
    rw [e1]
    omega

/-- THE ARRAY after the region: the array of partials of the samples' losses. -/
theorem final (c : Dev nD) (h : InRange m c) : (dats m 0 c).arrAt 3 cfg0.N = tiledLoss (sampleLosses m c h) :=
  (dats m 0 c).arrAt_eq_of_cover 3 (tiledLoss (sampleLosses m c h)) (fun t _ => flushed_eq m c h t) cover

/-- THE RESULT: the host's sum of the array from zero, divided by 32768, is the mean loss. -/
theorem result_eq (c : Dev nD) (h : InRange m c) :
    Pipeline.afterTail₀ cfgs (dats m) 0 (V0 m) [hostOps1] c main_v12 = fun _ => meanLoss (sampleLosses m c h) := by
  unfold Pipeline.afterTail₀
  show StableHlo.after hostOps1 _ (Proc.devRef .tc main_v12) = _
  after_results
  show Host.divf (F := Ideal) (Host.reduceAdd (F := Ideal)
      (Pipeline.withArrays spec0 c (V0 m c) (fun w => (dats m 0 c).arrAt w cfg0.N) (Proc.devRef .tc (Pipeline.arrRef spec0 3)))
      (constant (F := Ideal) S_ .f32 0x00000000#32) reducesTo_S512x128_S_d0_1 h_S_) (constant (F := Ideal) S_ .f32 0x47000000#32) = _
  rw [Pipeline.withArrays_arr spec0 launch0.win.arr_inj c _ _ 3, final m c h]
  funext i
  show Ideal.div (Ideal.hostReduceAdd reducesTo_S512x128_S_d0_1 (tiledLoss (sampleLosses m c h)) wZero i) wCount = _
  rw [Ideal.hostReduceAdd_total _ (fun b => b.elim0)]
  exact div_sum_tiledLoss _

/-- THE RUN, read: every weakly fair execution of the kernel program ends with its result at the mean loss and its
    arguments unchanged. -/
theorem run (h : ∀ c : Dev nD, InRange m c) :
    θ_run defs (onTc (τ := τ) (main (F := Ideal))) ⟨m, fun _ => 0, ρ⟩ fun r => ∀ c : Dev nD,
      r.2.mem ((c.tc : Thread nD τ).loc main_v12) = (fun _ => meanLoss (sampleLosses m c (h c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ hp c =>
    ⟨((hp c).2 main_v12 (Pipeline.mem_restRefs_of main_v12 (by decide) (by decide))).trans (result_eq m c (h c)),
      ((hp c).1 0).trans (((dats m 0 c).arrAt_in 0 rfl _).trans ((A_eq m c 0).trans (V_main_arg0 m c))),
      ((hp c).2 main_arg1 (Pipeline.mem_restRefs_of main_arg1 (by decide) (by decide))).trans (W_main_arg1 m (dats m) c),
      ((hp c).2 main_arg2 (Pipeline.mem_restRefs_of main_arg2 (by decide) (by decide))).trans (W_main_arg2 m (dats m) c)⟩)
    (run_main m ρ)

end Cert.KernelIdeal.KernelValue

end
-- ==== Proof.RefLoss.lean ====
/-
  The reference program's result is the mean sample loss of `DomainLoss`, when every target is a class index in [0, 2048).

  Row `r` of the reference: the softmax of row `r` of the logits (the row's maximum taken from −∞, then once more
  against −∞; the exponentials; their sum from 0; the quotient), the target's probability read out of the softmax by a
  gather along the class axis at the target (a negative target first wrapped by 2048, the gathered value kept only where
  the wrapped index lies in [0, 2047]), the last column's probability by a slice, the class weight by a gather of the
  weight vector at the wrapped target, and the pointwise loss. For a target in [0, 2048) the wrap does nothing, the
  range test passes, and both gathers read at the target itself.
-/
import proofs.«408537_j1606317768947_2_alg».proof.Proof.RefReadP
import proofs.«408537_j1606317768947_2_alg».proof.Proof.DomainLoss
import Idealize.ShloMosaic.Lib.ValueIdx
import Idealize.ShloMosaic.Lib.StableHlo.Predicate
import Idealize.ShloMosaic.PureOps.Ideal.Laws

noncomputable section

namespace Cert.ReferenceIdeal.RefLoss

open Cert.ReferenceIdeal Cert.ReferenceIdeal.Gen Cert.ReferenceIdeal.ReadP Idealize.ShloMosaic Idealize.ShloMosaic.ValueIdx Cert.DomainLoss

/-! ## The softmax of a row -/

/-- The reference's row maximum at row `r`: the largest entry of the row, from −∞. -/
theorem ref_rowMax (x0 : FVec Ideal S32768x2048 .f32) (r : Fin 32768) :
    val_main_v0 (F := Ideal) x0 (ix1 r) = rowMax fun c => x0 (ix2 r c) := by
  unfold val_main_v0
  have h : S32768x2048.Reduces [1] S32768 := by decide
  rw [Host.reduce_eq_fold_single FloatOps.maximumf x0 (val_main_cst (F := Ideal)) reducesTo_S32768x2048_S32768_d1 h h_S_ (ix1 r)]
  show (Finset.univ : Finset (Fin 2048)).fold max wNegInf (x0 ∘ h.lift (ix1 r)) = _
  unfold rowMax
  refine congrArg (fun f => (Finset.univ : Finset (Fin 2048)).fold max wNegInf f) (funext fun c => ?_)
  exact congrArg x0 (funext fun a => Fin.ext (by match a with | ⟨0, _⟩ => rfl | ⟨1, _⟩ => rfl))

/-- Taken once more against −∞ (jax's softmax guards the maximum), the row maximum is unchanged. -/
theorem ref_rowMax_guarded (x0 : FVec Ideal S32768x2048 .f32) (r : Fin 32768) :
    val_main_v2 (F := Ideal) x0 (ix1 r) = rowMax fun c => x0 (ix2 r c) := by
  rw [val_main_v2_apply, val_main_v1_apply, val_main_cst_0_apply, ref_rowMax]
  exact max_wNegInf_rowMax _

/-- The row maximum laid along the row: at every column of row `r` it is row `r`'s maximum. -/
theorem ref_rowMax_bcast (x0 : FVec Ideal S32768x2048 .f32) (r : Fin 32768) (c : Fin 2048) :
    val_main_v4 (F := Ideal) x0 (ix2 r c) = rowMax fun c => x0 (ix2 r c) := by
  rw [val_main_v4_apply, val_main_v3_apply]
  have e : idx_main_v3 (idx_main_v4 (ix2 r c)) = ix1 r := funext fun a => by match a with | ⟨0, _⟩ => rfl
  rw [e, ref_rowMax_guarded]

/-- The reference's exponentials are the row's softmax numerators. -/
theorem ref_rowExp (x0 : FVec Ideal S32768x2048 .f32) (r : Fin 32768) (c : Fin 2048) :
    val_main_v6 (F := Ideal) x0 (ix2 r c) = rowExp (fun c => x0 (ix2 r c)) c := by
  rw [val_main_v6_apply, val_main_v5_apply, ref_rowMax_bcast]
  rfl

/-- Their sum from the zero word is the row's softmax denominator. -/
theorem ref_rowDen (x0 : FVec Ideal S32768x2048 .f32) (r : Fin 32768) :
    val_main_v7 (F := Ideal) x0 (ix1 r) = rowDen fun c => x0 (ix2 r c) := by
  rw [val_main_v7_apply, val_main_cst_1_apply]
  show Ideal.ofBits .f32 0x00000000#32 + _ = _
  rw [Ideal.ofBits_zero_f32, zero_add]
  unfold rowDen
  refine Finset.sum_congr rfl fun k _ => ?_
  have e : idx_main_v7 (ix1 r) k = ix2 r k := funext fun a => by match a with | ⟨0, _⟩ => rfl | ⟨1, _⟩ => rfl
  rw [e, ref_rowExp]

/-- The denominator laid along the row. -/
theorem ref_rowDen_bcast (x0 : FVec Ideal S32768x2048 .f32) (r : Fin 32768) (c : Fin 2048) :
    val_main_v9 (F := Ideal) x0 (ix2 r c) = rowDen fun c => x0 (ix2 r c) := by
  rw [val_main_v9_apply, val_main_v8_apply]
  have e : idx_main_v8 (idx_main_v9 (ix2 r c)) = ix1 r := funext fun a => by match a with | ⟨0, _⟩ => rfl
  rw [e, ref_rowDen]

/-- The reference's softmax at (r, c): the numerator at `c` over the denominator. -/
theorem ref_softmax (x0 : FVec Ideal S32768x2048 .f32) (r : Fin 32768) (c : Fin 2048) :
    val_main_v10 (F := Ideal) x0 (ix2 r c)
      = Ideal.div (rowExp (fun c => x0 (ix2 r c)) c) (rowDen fun c => x0 (ix2 r c)) := by
  rw [val_main_v10_apply, ref_rowExp, ref_rowDen_bcast]
  rfl

/-- The last column's probability, read out by the slice and the reshape. -/
theorem ref_lastCol (x0 : FVec Ideal S32768x2048 .f32) (r : Fin 32768) :
    val_main_v15 (F := Ideal) x0 (ix1 r)
      = Ideal.div (rowExp (fun c => x0 (ix2 r c)) lastCol) (rowDen fun c => x0 (ix2 r c)) := by
  rw [val_main_v15_apply, val_main_v14_apply]
  have e : idx_main_v14 (idx_main_v15 (ix1 r)) = ix2 r lastCol :=
    funext fun a => by match a with | ⟨0, _⟩ => exact Fin.ext (Nat.div_one _) | ⟨1, _⟩ => rfl
  rw [e, ref_softmax]

/-! ## A target in [0, 2048): the words of the index arithmetic -/

open Idealize.ShloMosaic.StableHlo.Predicate in
/-- A class index is not negative: the signed test against 0 fails. -/
theorem slt_zero_of_lt {t : BitVec 32} (ht : t.toNat < 2048) : IntOp.cmpi .slt t 0#32 = 0#1 :=
  eq_zero_of_ne_one fun h => absurd ((slt_iff_toNat (by omega) (by decide)).1 h) (Nat.not_lt_zero _)

open Idealize.ShloMosaic.StableHlo.Predicate in
/-- A class index is at least 0 … -/
theorem sge_zero_of_lt {t : BitVec 32} (ht : t.toNat < 2048) : IntOp.cmpi .sge t 0#32 = 1#1 :=
  (sge_iff_toNat (by omega) (by decide)).2 (Nat.zero_le _)

open Idealize.ShloMosaic.StableHlo.Predicate in
/-- … and at most 2047. -/
theorem sle_last_of_lt {t : BitVec 32} (ht : t.toNat < 2048) : IntOp.cmpi .sle t 2047#32 = 1#1 :=
  (sle_iff_toNat (by omega) (by decide)).2 (by show t.toNat ≤ 2047; omega)

open Idealize.ShloMosaic.StableHlo.Predicate in
/-- Read signed and clamped into the class axis, a class index is itself. -/
theorem clamp_of_lt {t : BitVec 32} (ht : t.toNat < 2048) : min t.toInt.toNat 2047 = t.toNat := by
  rw [toInt_eq_toNat_of_lt (by omega), Int.toNat_natCast]
  omega

/-- jnp's wrap of a negative index by the axis length leaves a class index alone. -/
theorem wrap_of_lt {t : BitVec 32} (ht : t.toNat < 2048) :
    Scalar.select (IntOp.cmpi .slt t 0#32) (IntOp.addi t 2048#32) t = t := by
  rw [slt_zero_of_lt ht, select_zero]

/-! ## The target's probability: the gather along the class axis -/

/-- The targets as a column: at (r, 0), row `r`'s target. -/
theorem ref_target_col (x1 : IVec S32768 32) (r : Fin 32768) :
    val_main_v11 (F := Ideal) x1 (ix2 r (0 : Fin 1)) = x1 (ix1 r) := by
  rw [val_main_v11_apply]
  exact congrArg x1 (funext fun a => by match a with | ⟨0, _⟩ => rfl)

/-- The wrapped target at (r, 0) is the target. -/
theorem ref_wrapped_col (x1 : IVec S32768 32) (r : Fin 32768) (ht : (x1 (ix1 r)).toNat < 2048) :
    val_main_call0_v4 (F := Ideal) x1 (ix2 r (0 : Fin 1)) = x1 (ix1 r) := by
  rw [val_main_call0_v4_apply, val_main_call0_v1_apply, val_main_call0_v3_apply, ref_target_col,
    val_main_call0_v0_apply, val_main_call0_c_apply, val_main_call0_v2_apply, val_main_call0_c_0_apply]
  exact wrap_of_lt ht

/-- So is the start index at (r, 0, 0). -/
theorem ref_start_index (x1 : IVec S32768 32) (r : Fin 32768) (ht : (x1 (ix1 r)).toNat < 2048) :
    val_main_call0_v5 (F := Ideal) x1 (ix3 r (0 : Fin 1) (0 : Fin 1)) = x1 (ix1 r) := by
  rw [val_main_call0_v5_apply]
  have e : idx_main_call0_v5 (ix3 r (0 : Fin 1) (0 : Fin 1)) = ix2 r (0 : Fin 1) :=
    funext fun a => by
      match a with
      | ⟨0, _⟩ => exact Fin.ext (by show ((r.val * 1 + 0) * 1 + 0) / 1 = r.val; omega)
      | ⟨1, _⟩ => rfl
  rw [e, ref_wrapped_col x1 r ht]

/-- The range test of the gathered index passes at every row: the start index lies in [0, 2047]. -/
theorem ref_in_range (x1 : IVec S32768 32) (r : Fin 32768) (ht : (x1 (ix1 r)).toNat < 2048) :
    val_main_call0_v12 (F := Ideal) x1 (ix2 r (0 : Fin 1)) = 1#1 := by
  unfold val_main_call0_v12
  have h : S32768x1x1.Reduces [2] S32768x1 := by decide
  rw [Host.reduce_eq_fold_single IntOp.andi (val_main_call0_v11 (F := Ideal) x1) (val_main_call0_c_3 (F := Ideal))
    reducesTo_S32768x1x1_S32768x1_d2 h h_S_ (ix2 r (0 : Fin 1))]
  show (Finset.univ : Finset (Fin 1)).fold IntOp.andi 1#1
    (fun k : Fin 1 => val_main_call0_v11 (F := Ideal) x1 (h.lift (ix2 r (0 : Fin 1)) k)) = 1#1
  rw [Finset.univ_unique, Finset.fold_singleton]
  have e : h.lift (ix2 r (0 : Fin 1)) (default : Fin 1) = ix3 r (0 : Fin 1) (0 : Fin 1) :=
    funext fun a => Fin.ext (by match a with | ⟨0, _⟩ => rfl | ⟨1, _⟩ => rfl | ⟨2, _⟩ => rfl)
  show IntOp.andi (val_main_call0_v11 (F := Ideal) x1 (h.lift (ix2 r (0 : Fin 1)) (default : Fin 1))) 1#1 = 1#1
  rw [e, val_main_call0_v11_apply, val_main_call0_v7_apply, val_main_call0_v10_apply, ref_start_index x1 r ht,
    val_main_call0_v6_apply, val_main_call0_c_2_apply, val_main_call0_v9_apply, val_main_call0_v8_apply,
    val_main_call0_c_1_apply, sge_zero_of_lt ht, sle_last_of_lt ht]
  rfl

/-- The batched gather along the class axis, read at (r, 0): the operand at row `r`, at the column which that row's
    start index names, read signed and clamped into [0, 2047]. (Axis 0 of the operand is a batching axis paired with
    axis 0 of the start indices, so the row is the result's own; axis 1 is collapsed and start-indexed.) -/
theorem gather_class_axis {α : Type} (x : S32768x2048.Idx → α) (idx : IVec S32768x1x1 32) (r : Fin 32768) :
    Host.gather gather_S32768x2048_S32768x1x1_S32768x1_n_1_0_0_1_2_11 x idx (ix2 r (0 : Fin 1))
      = x (ix2 r ⟨min (idx (ix3 r (0 : Fin 1) (0 : Fin 1))).toInt.toNat 2047, by omega⟩) := by
  unfold Host.gather
  refine congrArg x (funext fun a => Fin.ext ?_)
  match a with
  | ⟨0, _⟩ =>
    -- no start on a batching axis, the batch coordinate the result's row, no offset
    show 0 + r.val + 0 = r.val
    omega
  | ⟨1, _⟩ =>
    have hm : (⟨1, by decide⟩ : Fin S32768x2048.rank)
        ∈ gather_S32768x2048_S32768x1x1_S32768x1_n_1_0_0_1_2_11.startIndexMap := by decide
    -- the clamped start, no batch coordinate and no offset on the collapsed axis
    show gather_S32768x2048_S32768x1x1_S32768x1_n_1_0_0_1_2_11.start (ix2 r (0 : Fin 1)) idx ⟨1, by decide⟩ + 0 + 0
      = min (idx (ix3 r (0 : Fin 1) (0 : Fin 1))).toInt.toNat 2047
    unfold GatherDims.start
    rw [dif_pos hm]
    have hsi : gather_S32768x2048_S32768x1x1_S32768x1_n_1_0_0_1_2_11.siIdx (ix2 r (0 : Fin 1))
        ⟨List.idxOf (⟨1, by decide⟩ : Fin S32768x2048.rank) gather_S32768x2048_S32768x1x1_S32768x1_n_1_0_0_1_2_11.startIndexMap,
          List.idxOf_lt_length_iff.2 hm⟩ = ix3 r (0 : Fin 1) (0 : Fin 1) := by
      funext b
      refine Fin.ext ?_
      match b with
      | ⟨0, _⟩ => rfl
      | ⟨1, _⟩ => rfl
      | ⟨2, _⟩ => rfl
    rw [hsi]
    rfl

/-- The target's probability: the softmax of row `r` at the target class (the range test passes, so the gathered
    value is kept; the gather's start index is the target, which the clamp leaves alone). -/
theorem ref_target_prob (x0 : FVec Ideal S32768x2048 .f32) (x1 : IVec S32768 32) (r : Fin 32768)
    (ht : (x1 (ix1 r)).toNat < 2048) :
    val_main_v13 (F := Ideal) x0 x1 (ix1 r)
      = Ideal.div (rowExp (fun c => x0 (ix2 r c)) ⟨(x1 (ix1 r)).toNat, ht⟩) (rowDen fun c => x0 (ix2 r c)) := by
  rw [val_main_v13_apply]
  have e : idx_main_v13 (ix1 r) = ix2 r (0 : Fin 1) :=
    funext fun a => by
      match a with
      | ⟨0, _⟩ => exact Fin.ext (Nat.div_one _)
      | ⟨1, _⟩ => rfl
  rw [e, val_main_v12_apply, ref_in_range x1 r ht, select_one]
  unfold val_main_call0_v13
  rw [gather_class_axis]
  have key : ∀ (n : Nat) (hn : n < 2048), n = (x1 (ix1 r)).toNat →
      val_main_v10 (F := Ideal) x0 (ix2 r ⟨n, hn⟩)
        = Ideal.div (rowExp (fun c => x0 (ix2 r c)) ⟨(x1 (ix1 r)).toNat, ht⟩) (rowDen fun c => x0 (ix2 r c)) := by
    intro n hn e
    subst e
    exact ref_softmax x0 r _
  exact key _ _ (by rw [ref_start_index x1 r ht]; exact clamp_of_lt ht)

/-! ## The class weight: the take of the weight vector at the target -/

open Idealize.ShloMosaic.StableHlo.Predicate in
/-- The reference's weight at row `r` is the weight vector at the target class. -/
theorem ref_weight (x1 : IVec S32768 32) (x2 : FVec Ideal S2048 .f32) (r : Fin 32768)
    (ht : (x1 (ix1 r)).toNat < 2048) :
    val_main_v22 (F := Ideal) x1 x2 (ix1 r) = x2 (ix1 ⟨(x1 (ix1 r)).toNat, ht⟩) := by
  unfold val_main_v22
  have e1 : (ix1 r : S32768.Idx) = Shape.Idx.ofFin r := funext fun a => by match a with | ⟨0, _⟩ => rfl
  refine (congrArg (Host.gather gather_S2048_S32768x1_S32768_n_0_n_n_0_1_1 x2 (val_main_v21 (F := Ideal) x1)) e1).trans ?_
  rw [gather_take gather_S2048_S32768x1_S32768_n_0_n_n_0_1_1 rfl rfl rfl rfl x2 (val_main_v21 (F := Ideal) x1) r
    (by decide)]
  have key : ∀ (n : Nat) (hn : n < 2048), n = (x1 (ix1 r)).toNat →
      x2 (Shape.Idx.ofFin ⟨n, hn⟩) = x2 (ix1 ⟨(x1 (ix1 r)).toNat, ht⟩) := by
    intro n hn e
    subst e
    exact congrArg x2 (funext fun a => by match a with | ⟨0, _⟩ => rfl)
  refine key _ _ ?_
  -- the start index at row r: the wrapped target, which is the target
  have ev : val_main_v21 (F := Ideal) x1 (ixP r) = x1 (ix1 r) := by
    rw [val_main_v21_apply]
    have e2 : idx_main_v21 (ixP r) = ix1 r := funext fun a => by match a with | ⟨0, _⟩ => rfl
    rw [e2, val_main_v20_apply, val_main_v17_apply, val_main_v19_apply, val_main_v16_apply, val_main_c_apply,
      val_main_v18_apply, val_main_c_2_apply]
    exact wrap_of_lt ht
  rw [ev]
  exact clamp_of_lt ht

/-! ## The sample loss and the mean -/

/-- Row `r` of the reference's pointwise loss is the sample loss of row `r`, its target and its weight. -/
theorem ref_rowLoss (x0 : FVec Ideal S32768x2048 .f32) (x1 : IVec S32768 32) (x2 : FVec Ideal S2048 .f32)
    (r : Fin 32768) (ht : (x1 (ix1 r)).toNat < 2048) :
    val_main_v43 (F := Ideal) x0 x1 x2 (ix1 r)
      = rowLoss (fun c => x0 (ix2 r c)) ⟨(x1 (ix1 r)).toNat, ht⟩ (x2 (ix1 ⟨(x1 (ix1 r)).toNat, ht⟩)) := by
  simp only [val_main_v43_apply, val_main_v42_apply, val_main_v40_apply, val_main_v41_apply, val_main_v37_apply,
    val_main_v28_apply, val_main_v27_apply, val_main_v24_apply, val_main_v26_apply, val_main_v39_apply,
    val_main_v36_apply, val_main_v35_apply, val_main_v33_apply, val_main_v30_apply, val_main_v32_apply,
    val_main_v23_apply, val_main_cst_3_apply, val_main_v25_apply, val_main_cst_4_apply, val_main_v29_apply,
    val_main_cst_5_apply, val_main_v31_apply, val_main_cst_6_apply, val_main_v34_apply, val_main_cst_7_apply,
    val_main_v38_apply, val_main_cst_8_apply]
  rw [ref_weight x1 x2 r ht, ref_target_prob x0 x1 r ht, ref_lastCol]
  rfl

/-- The reference's result at its one index: the mean of the samples' losses, each sample's target read as a class
    index (admissible because it lies in [0, 2048)) and its weight read from the weight vector at that class. -/
theorem result_eq (x0 : FVec Ideal S32768x2048 .f32) (x1 : IVec S32768 32) (x2 : FVec Ideal S2048 .f32)
    (htg : ∀ r : Fin 32768, (x1 (ix1 r)).toNat < 2048) (i : S_.Idx) :
    val_main_v45 (F := Ideal) x0 x1 x2 i
      = meanLoss fun r => rowLoss (fun c => x0 (ix2 r c)) ⟨(x1 (ix1 r)).toNat, htg r⟩ (x2 (ix1 ⟨(x1 (ix1 r)).toNat, htg r⟩)) := by
  rw [val_main_v45_apply, val_main_v44_apply, val_main_cst_9_apply, val_main_cst_10_apply]
  -- the sum over the rank-1 index set is the sum over the rows
  have hs : ∑ j : S32768.Idx, val_main_v43 (F := Ideal) x0 x1 x2 j
      = ∑ r : Fin 32768, rowLoss (fun c => x0 (ix2 r c)) ⟨(x1 (ix1 r)).toNat, htg r⟩
          (x2 (ix1 ⟨(x1 (ix1 r)).toNat, htg r⟩)) :=
    (Equiv.sum_comp (idxEquiv1 (n := 32768)).symm (val_main_v43 (F := Ideal) x0 x1 x2)).symm.trans
      (Finset.sum_congr rfl fun r _ => ref_rowLoss x0 x1 x2 r (htg r))
  rw [hs]
  rfl

end Cert.ReferenceIdeal.RefLoss

end
-- ==== Proof.lean ====
/-
  The certificate: the Pallas kernel of the weighted partial-domain adversarial loss and its jnp reference compute the
  same scalar over the extended reals, for finite float inputs and targets that are class indices (0 ≤ target < 2048).

  Both programs compute, per sample, the softmax probability `pt` of the target class and `pd` of the last ("domain")
  column, the loss `w · (−log pt' · (1 − pd) − log (1 − pt'') · pd)` with the two guarded variants of `pt`, and the mean
  of the 32768 losses (`DomainLoss`). They differ in three ways that change nothing at exact arithmetic:
  the kernel reads the target's numerator by summing the row with every other column zeroed where the reference gathers
  the quotient at the target (`DomainLoss.sum_select_col`); the kernel negates by subtracting from zero; and the kernel
  sums tile by tile, leaving each tile's partial in the corner of a zero 8 × 128 block that the host then sums, where the
  reference sums the samples directly (`SumTiles`: addition on the extended reals is commutative and associative).
  They differ in one way that does: outside [0, 2048) the kernel clips the target while the reference moves a negative one
  up by 2048 and fills the probability where the index is still out of range, so the claim is stated, and true, for
  targets in range — the precondition's two range conjuncts, read in `TargetRange`. The finiteness conjuncts are not used:
  no law applied here fails at an infinity.

  The kernel's frames are the generated ones; its value is read off the generated frame run (`KernelValue`: the blocks
  of a grid point, what the point writes back by `TileLoss`, the cover, the host's sum and quotient after the region).
  The reference's run and its operations read at an index are the generated modules' (patched copies, see their first
  lines); `RefLoss` identifies the reference's term with the mean loss.
-/
import proofs.«408537_j1606317768947_2_alg».proof.Defs
import proofs.«408537_j1606317768947_2_alg».proof.Proof.Gen.Kernel
import proofs.«408537_j1606317768947_2_alg».proof.Proof.Gen.Kernel.Skeleton
import proofs.«408537_j1606317768947_2_alg».proof.Proof.Gen.Kernel.Launch
import proofs.«408537_j1606317768947_2_alg».proof.Proof.Gen.Kernel.Points
import proofs.«408537_j1606317768947_2_alg».proof.Proof.Gen.Kernel.Frame
import proofs.«408537_j1606317768947_2_alg».proof.Proof.Gen.KernelIdeal
import proofs.«408537_j1606317768947_2_alg».proof.Proof.Gen.KernelIdeal.Skeleton
import proofs.«408537_j1606317768947_2_alg».proof.Proof.Gen.KernelIdeal.Launch
import proofs.«408537_j1606317768947_2_alg».proof.Proof.Gen.KernelIdeal.Points
import proofs.«408537_j1606317768947_2_alg».proof.Proof.Gen.KernelIdeal.Frame
import proofs.«408537_j1606317768947_2_alg».proof.Proof.Gen.ReferenceIdeal
import proofs.«408537_j1606317768947_2_alg».proof.Proof.RefRunP
import proofs.«408537_j1606317768947_2_alg».proof.Proof.RefReadP
import proofs.«408537_j1606317768947_2_alg».proof.Proof.Gen.Pre_finite_inputs
import proofs.«408537_j1606317768947_2_alg».proof.Proof.TargetRange
import proofs.«408537_j1606317768947_2_alg».proof.Proof.KernelValue
import proofs.«408537_j1606317768947_2_alg».proof.Proof.RefLoss
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments and satisfy the precondition, both programs end at the mean of the samples'
    losses: the kernel by `KernelValue.run`, the reference by its run and `RefLoss.result_eq`, the targets in range by
    `TargetRange.target_lt`. -/
theorem algebraic : Cert.algebraic_KernelIdeal_ReferenceIdeal := by
  intro m ρ m' ρ' hpre hagree
  have hr : ∀ c, Cert.KernelIdeal.KernelValue.InRange m c := fun c r =>
    Cert.Pre_finite_inputs.TargetRange.target_lt _ _ _ (hpre c) r
  refine ⟨fun c => fun _ => Cert.DomainLoss.meanLoss (Cert.KernelIdeal.KernelValue.sampleLosses m c (hr c)),
    Cert.KernelIdeal.KernelValue.run m ρ hr, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v45_eq, (hagree c).1, (hagree c).2.1, (hagree c).2.2]
  funext i
  exact Cert.ReferenceIdeal.RefLoss.result_eq _ _ _ (hr c) i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
